-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1x4096 : Shape := ⟨3, ![32768, 1, 4096]⟩
abbrev S64x1x256 : Shape := ⟨3, ![64, 1, 256]⟩
abbrev S32768x64 : Shape := ⟨2, ![32768, 64]⟩
abbrev S_ : Shape := ⟨0, ![]⟩

class Facts : Prop where
  bcast_S_S32768x1x4096 : S_.BroadcastsInDim S32768x1x4096 (![] : Fin 0 → Fin S32768x1x4096.rank)
  reducesTo_S32768x1x4096_S_d0_1_2 : S32768x1x4096.ReducesTo [0, 1, 2] S_
  h_S_ : 0 < S_.numel
  bcast_S_S64x1x256 : S_.BroadcastsInDim S64x1x256 (![] : Fin 0 → Fin S64x1x256.rank)
  reducesTo_S64x1x256_S_d0_1_2 : S64x1x256.ReducesTo [0, 1, 2] S_
  bcast_S_S32768x64 : S_.BroadcastsInDim S32768x64 (![] : Fin 0 → Fin S32768x64.rank)
  reducesTo_S32768x64_S_d0_1 : S32768x64.ReducesTo [0, 1] S_

variable [Facts]

def fn {F : FTy → Type} [FloatOps F] (main_arg0 : FVec F S32768x1x4096 .f32) (main_arg1 : FVec F S64x1x256 .f32) (main_arg2 : FVec F S32768x64 .f32) : IVec S_ 1 :=
  let main_v0 : FVec F S32768x1x4096 .f32 := Host.absf main_arg0
  let main_cst : FVec F S_ .f32 := constant S_ .f32 0x7F800000#32
  let main_v1 : FVec F S32768x1x4096 .f32 := broadcastInDim S32768x1x4096 ![] bcast_S_S32768x1x4096 main_cst
  let main_v2 : IVec S32768x1x4096 1 := cmpf .olt main_v0 main_v1
  let main_c : IVec S_ 1 := constantI S_ 1 1#1
  let main_v3 : IVec S_ 1 := (fun x v => Host.reduce IntOp.andi x v reducesTo_S32768x1x4096_S_d0_1_2 h_S_) main_v2 main_c
  let main_v4 : FVec F S64x1x256 .f32 := Host.absf main_arg1
  let main_cst_0 : FVec F S_ .f32 := constant S_ .f32 0x7F800000#32
  let main_v5 : FVec F S64x1x256 .f32 := broadcastInDim S64x1x256 ![] bcast_S_S64x1x256 main_cst_0
  let main_v6 : IVec S64x1x256 1 := cmpf .olt main_v4 main_v5
  let main_c_1 : IVec S_ 1 := constantI S_ 1 1#1
  let main_v7 : IVec S_ 1 := (fun x v => Host.reduce IntOp.andi x v reducesTo_S64x1x256_S_d0_1_2 h_S_) main_v6 main_c_1
  let main_v8 : IVec S_ 1 := andi main_v3 main_v7
  let main_v9 : FVec F S32768x64 .f32 := Host.absf main_arg2
  let main_cst_2 : FVec F S_ .f32 := constant S_ .f32 0x7F800000#32
  let main_v10 : FVec F S32768x64 .f32 := broadcastInDim S32768x64 ![] bcast_S_S32768x64 main_cst_2
  let main_v11 : IVec S32768x64 1 := cmpf .olt main_v9 main_v10
  let main_c_3 : IVec S_ 1 := constantI S_ 1 1#1
  let main_v12 : IVec S_ 1 := (fun x v => Host.reduce IntOp.andi x v reducesTo_S32768x64_S_d0_1 h_S_) main_v11 main_c_3
  let main_v13 : IVec S_ 1 := andi main_v8 main_v12
  main_v13
-- ==== Kernel.lean ====
abbrev S32768x1x4096 : Shape := ⟨3, ![32768, 1, 4096]⟩
abbrev S64x1x256 : Shape := ⟨3, ![64, 1, 256]⟩
abbrev S32768x64 : Shape := ⟨2, ![32768, 64]⟩
abbrev S32768x16x256 : Shape := ⟨3, ![32768, 16, 256]⟩
abbrev S64x256 : Shape := ⟨2, ![64, 256]⟩
abbrev S1024x16x256 : Shape := ⟨3, ![1024, 16, 256]⟩
abbrev S1024x64 : Shape := ⟨2, ![1024, 64]⟩
abbrev S1024x256 : Shape := ⟨2, ![1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S32768x1x4096, .f32⟩
  | .hbm, ⟨1, _⟩ => ⟨S64x1x256, .f32⟩
  | .hbm, ⟨2, _⟩ => ⟨S32768x64, .f32⟩
  | .hbm, ⟨3, _⟩ => ⟨S32768x16x256, .f32⟩
  | .hbm, ⟨4, _⟩ => ⟨S64x256, .f32⟩
  | .hbm, ⟨5, _⟩ => ⟨S32768x64, .f32⟩
  | .local _ .vmem, ⟨0, _⟩ => ⟨S1024x16x256, .f32⟩
  | .local _ .vmem, ⟨1, _⟩ => ⟨S1024x16x256, .f32⟩
  | .local _ .vmem, ⟨2, _⟩ => ⟨S64x256, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | _, _ => ⟨S32768x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32768x1x4096_S32768x16x256 : S32768x1x4096.ShapeCasts S32768x16x256
  shapeCasts_S64x1x256_S64x256 : S64x1x256.ShapeCasts S64x256
  inb_S1024x16x256_S1024x16x256_0_0_0 : ∀ a, (![0, 0, 0] : Fin 3 → Nat) a + S1024x16x256.size a ≤ S1024x16x256.size a
  h_S1024x16x256 : 0 < S1024x16x256.numel
  shapeCasts_S1024x16x256_S1024x16x256 : S1024x16x256.ShapeCasts S1024x16x256
  reduces_S1024x16x256_S1024x256 : S1024x16x256.Reduces [1] S1024x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  dot_S1024x256_S64x256_S1024x64_1_1_0_0_n_n_wf : DotDims.WF S1024x256 S64x256 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16x256.size a ≤ S32768x16x256.size a
  hwx0_0 : ∀ i : grid0.Coords, EltTy.bits .f32 = 32 ∨ (Rect.block (s := S32768x16x256) S1024x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S32768x64.size a
  hwx0_2 : ∀ i : grid0.Coords, EltTy.bits .f32 = 32 ∨ (Rect.block (s := S32768x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S32768x64.size a
  hwx0_3 : ∀ i : grid0.Coords, EltTy.bits .f32 = 32 ∨ (Rect.block (s := S32768x64) S1024x64.size (cc0_transform_3 i) (hinb0_3 i)).WholeWords (EltTy.packing .f32)

variable [Facts₀]

def dot_S1024x256_S64x256_S1024x64_1_1_0_0_n_n : DotDims S1024x256 S64x256 S1024x64 where
  lhsContracting := [1]
  rhsContracting := [1]
  lhsNonContracting := [0]
  rhsNonContracting := [0]
  lhsBatch := []
  rhsBatch := []
  wf := dot_S1024x256_S64x256_S1024x64_1_1_0_0_n_n_wf

abbrev win0_0 : Pipeline.Window sig grid0 :=
  Pipeline.Window.ofSpec (Memref.whole main_v0) S1024x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1x4096 : Shape := ⟨3, ![32768, 1, 4096]⟩
abbrev S64x1x256 : Shape := ⟨3, ![64, 1, 256]⟩
abbrev S32768x64 : Shape := ⟨2, ![32768, 64]⟩
abbrev S32768x16x256 : Shape := ⟨3, ![32768, 16, 256]⟩
abbrev S_ : Shape := ⟨0, ![]⟩
abbrev S32768x256 : Shape := ⟨2, ![32768, 256]⟩
abbrev S64x256 : Shape := ⟨2, ![64, 256]⟩

abbrev nBuf : Space → Nat
  | .hbm => 9
  | .vmem => 0
  | .smem => 0
  | _ => 0

abbrev bufTy : (tb : Table) → Fin (tcTables nBuf tb) → BufTy
  | .hbm, ⟨0, _⟩ => ⟨S32768x1x4096, .f32⟩
  | .hbm, ⟨1, _⟩ => ⟨S64x1x256, .f32⟩
  | .hbm, ⟨2, _⟩ => ⟨S32768x64, .f32⟩
  | .hbm, ⟨3, _⟩ => ⟨S32768x16x256, .f32⟩
  | .hbm, ⟨4, _⟩ => ⟨S_, .f32⟩
  | .hbm, ⟨5, _⟩ => ⟨S32768x256, .f32⟩
  | .hbm, ⟨6, _⟩ => ⟨S64x256, .f32⟩
  | .hbm, ⟨7, _⟩ => ⟨S32768x64, .f32⟩
  | .hbm, ⟨8, _⟩ => ⟨S32768x64, .f32⟩
  | _, _ => ⟨S32768x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  shapeCasts_S32768x1x4096_S32768x16x256 : S32768x1x4096.ShapeCasts S32768x16x256
  reducesTo_S32768x16x256_S32768x256_d1 : S32768x16x256.ReducesTo [1] S32768x256
  h_S_ : 0 < S_.numel
  shapeCasts_S64x1x256_S64x256 : S64x1x256.ShapeCasts S64x256
  dot_S32768x256_S64x256_S32768x64_1_1_0_0_n_n_wf : DotDims.WF S32768x256 S64x256 S32768x64 [1] [1] [0] [0] [] []

variable [Facts₀]

def dot_S32768x256_S64x256_S32768x64_1_1_0_0_n_n : DotDims S32768x256 S64x256 S32768x64 where
  lhsContracting := [1]
  rhsContracting := [1]
  lhsNonContracting := [0]
  rhsNonContracting := [0]
  lhsBatch := []
  rhsBatch := []
  wf := dot_S32768x256_S64x256_S32768x64_1_1_0_0_n_n_wf

class Facts : Prop extends Facts₀ where

variable [Facts]
-- ==== Proof.GateSpec.lean ====
/-
  The router's gate as ONE function of the arrays, index by index.

  The input row `b` is read as sixteen patches of 256 lanes, `xr[b, p, k]`. The patches are added lane by lane
  (the patch sum `s[b, k] = Σ_p xr[b, p, k]`), the patch sum is contracted with row `o` of the weight over the 256
  lanes, and the tie-breaking noise at `(b, o)` is added:

      gate[b, o] = Σ_k (Σ_p xr[b, p, k]) · w[o, k] + tie[b, o].

  Both programs compute exactly this nesting of sums — the kernel 1024 rows at a time, the reference on all 32768
  rows at once — so no law beyond the definition is needed to join them: the sums are never reordered and nothing
  is distributed, and the statement holds on all extended reals.
-/
import Idealize.ShloMosaic.PureOps.Ideal
import Idealize.ShloMosaic.Lib.ValueIdx

noncomputable section

namespace Cert.Router

open Idealize.ShloMosaic Idealize.ShloMosaic.ValueIdx

/-- `gate xr w tie` at `(b, o)`: the patch sum of row `b` contracted with row `o` of `w`, plus `tie[b, o]`. -/
def gate (xr : (⟨3, ![32768, 16, 256]⟩ : Shape).Idx → EReal) (w : (⟨2, ![64, 256]⟩ : Shape).Idx → EReal)
    (tie : (⟨2, ![32768, 64]⟩ : Shape).Idx → EReal) : (⟨2, ![32768, 64]⟩ : Shape).Idx → EReal :=
  fun i => (∑ k : Fin 256, (∑ p : Fin 16, xr (ix3 (i 0) p k)) * w (ix2 (i 1) k)) + tie i

/-- The same at explicit coordinates. -/
theorem gate_apply (xr : (⟨3, ![32768, 16, 256]⟩ : Shape).Idx → EReal) (w : (⟨2, ![64, 256]⟩ : Shape).Idx → EReal)
    (tie : (⟨2, ![32768, 64]⟩ : Shape).Idx → EReal) (b : Fin 32768) (o : Fin 64) :
    gate xr w tie (ix2 b o) = (∑ k : Fin 256, (∑ p : Fin 16, xr (ix3 b p k)) * w (ix2 o k)) + tie (ix2 b o) := rfl

end Cert.Router

end
-- ==== Proof.BlockGate.lean ====
/-
  What the kernel body stores, read at one index of a block.

  At a grid point the body holds a block `x0` of 1024 rows (each sixteen patches of 256 lanes), the whole weight
  `x1` and the block `x2` of the tie-breaking noise. It adds the sixteen patches lane by lane, contracts the patch
  sum with each weight row over the 256 lanes (into a zero accumulator; the two changes of float format before the
  product are the identity on extended reals) and adds the noise. So at row `r` of the block and output `o`

      stored[r, o] = Σ_k (Σ_p x0[r, p, k]) · x1[o, k] + x2[r, o].
-/
import proofs.«144044_j9844065042868_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.Router.Block

open Cert.KernelIdeal Cert.KernelIdeal.Gen Idealize.ShloMosaic Idealize.ShloMosaic.ValueIdx

/-! ## The patch sum: sixteen patches added lane by lane -/

/-- The lane-by-lane sum over the patch axis, at row `r` and lane `k`, is the sum of the sixteen patches' entries there. -/
theorem patchSum_apply (x0 : FVec Ideal S1024x16x256 .f32) (r : Fin 1024) (k : Fin 256) :
    (multiReduction (F := Ideal) .add [1] S1024x256 (shapeCast S1024x16x256 x0 shapeCasts_S1024x16x256_S1024x16x256)
        0x00000000#32 reduces_S1024x16x256_S1024x256 (.inl rfl) rfl) (ix2 r k)
      = ∑ p : Fin 16, x0 (ix3 r p k) := by
  rw [shapeCast_self]
  refine (Ideal.multiReduction_add_single x0 0x00000000#32 reduces_S1024x16x256_S1024x256 (.inl rfl) rfl (ix2 r k)).trans ?_
  refine Finset.sum_congr rfl fun p _ => ?_
  exact congrArg x0 (funext fun a => Fin.ext (by match a with | ⟨0, _⟩ => rfl | ⟨1, _⟩ => rfl | ⟨2, _⟩ => rfl))

/-! ## The contraction over the 256 lanes -/

/-- The left operand's row is the output's row, -/
theorem lhs_row (i : S1024x64.Idx) (q : dot_S1024x256_S64x256_S1024x64_1_1_0_0_n_n.contr.Idx) :
    (dot_S1024x256_S64x256_S1024x64_1_1_0_0_n_n.lhsIdx i q 0).val = (i 0).val := by
  unfold DotDims.lhsIdx
  rw [dif_neg (show ¬(0 : Fin S1024x256.rank) ∈ dot_S1024x256_S64x256_S1024x64_1_1_0_0_n_n.lhsBatch by decide), dif_pos (show (0 : Fin S1024x256.rank) ∈ dot_S1024x256_S64x256_S1024x64_1_1_0_0_n_n.lhsNonContracting by decide)]
  rfl
/-- its lane the contracted one; -/
theorem lhs_lane (i : S1024x64.Idx) (q : dot_S1024x256_S64x256_S1024x64_1_1_0_0_n_n.contr.Idx) :
    (dot_S1024x256_S64x256_S1024x64_1_1_0_0_n_n.lhsIdx i q 1).val = (q ⟨0, by decide⟩).val :=
  dot_S1024x256_S64x256_S1024x64_1_1_0_0_n_n.lhsIdx_val_of_single rfl i q
/-- the right operand's row is the output's column, -/
theorem rhs_row (i : S1024x64.Idx) (q : dot_S1024x256_S64x256_S1024x64_1_1_0_0_n_n.contr.Idx) :
    (dot_S1024x256_S64x256_S1024x64_1_1_0_0_n_n.rhsIdx i q 0).val = (i 1).val := by
  unfold DotDims.rhsIdx
  rw [dif_neg (show ¬(0 : Fin S64x256.rank) ∈ dot_S1024x256_S64x256_S1024x64_1_1_0_0_n_n.rhsBatch by decide), dif_pos (show (0 : Fin S64x256.rank) ∈ dot_S1024x256_S64x256_S1024x64_1_1_0_0_n_n.rhsNonContracting by decide)]
  rfl
/-- and its lane the contracted one. -/
theorem rhs_lane (i : S1024x64.Idx) (q : dot_S1024x256_S64x256_S1024x64_1_1_0_0_n_n.contr.Idx) :
    (dot_S1024x256_S64x256_S1024x64_1_1_0_0_n_n.rhsIdx i q 1).val = (q ⟨0, by decide⟩).val :=
  dot_S1024x256_S64x256_S1024x64_1_1_0_0_n_n.rhsIdx_val_of_single rfl i q

/-- The product into a zero accumulator, at `(r, o)`: row `r` of the left operand against row `o` of the right one,
    summed over the 256 lanes. -/
theorem contract_apply (L : FVec Ideal S1024x256 .bf16) (R : FVec Ideal S64x256 .bf16) (r : Fin 1024) (o : Fin 64) :
    (matmul dot_S1024x256_S64x256_S1024x64_1_1_0_0_n_n none L R (constant S1024x64 .f32 0x00000000#32)) (ix2 r o)
      = ∑ k : Fin 256, L (ix2 r k) * R (ix2 o k) := by
  simp only [matmul]
  rw [Ideal.matmul_constant_zero_apply, ← Equiv.sum_comp (ValueIdx.contrEquiv1 dot_S1024x256_S64x256_S1024x64_1_1_0_0_n_n 256 rfl rfl).symm]
  refine Finset.sum_congr rfl fun k _ => ?_
  have hk := ValueIdx.contrEquiv1_symm_val dot_S1024x256_S64x256_S1024x64_1_1_0_0_n_n 256 rfl rfl k
  have el : dot_S1024x256_S64x256_S1024x64_1_1_0_0_n_n.lhsIdx (ix2 r o) ((ValueIdx.contrEquiv1 dot_S1024x256_S64x256_S1024x64_1_1_0_0_n_n 256 rfl rfl).symm k) = ix2 r k := funext fun a => Fin.ext (by
    match a with
    | ⟨0, _⟩ => exact lhs_row _ _
    | ⟨1, _⟩ => exact (lhs_lane _ _).trans hk)
  have er : dot_S1024x256_S64x256_S1024x64_1_1_0_0_n_n.rhsIdx (ix2 r o) ((ValueIdx.contrEquiv1 dot_S1024x256_S64x256_S1024x64_1_1_0_0_n_n 256 rfl rfl).symm k) = ix2 o k := funext fun a => Fin.ext (by
    match a with
    | ⟨0, _⟩ => exact rhs_row _ _
    | ⟨1, _⟩ => exact (rhs_lane _ _).trans hk)
  rw [el, er]

/-! ## The stored value -/

/-- What the body stores at row `r`, output `o` of the block: the patch sum of row `r` contracted with weight row `o`,
    plus the noise there. -/
theorem pay_apply (x0 : Vec Ideal S1024x16x256 .f32) (x1 : Vec Ideal S64x256 .f32) (x2 : Vec Ideal S1024x64 .f32)
    (r : Fin 1024) (o : Fin 64) :
    k0_pay1 (F := Ideal) x0 x1 x2 (ix2 r o)
      = (∑ k : Fin 256, (∑ p : Fin 16, x0 (ix3 r p k)) * x1 (ix2 o k)) + x2 (ix2 r o) := by
  unfold k0_pay1
  refine congrArg (· + x2 (ix2 r o)) ?_
  refine (contract_apply _ _ r o).trans ?_
  refine Finset.sum_congr rfl fun k _ => ?_
  refine congrArg₂ (· * ·) (patchSum_apply x0 r k) ?_
  exact congrFun (shapeCast_self x1 shapeCasts_S64x256_S64x256) (ix2 o k)

end Cert.Router.Block

end
-- ==== Proof.KernelGate.lean ====
/-
  The kernel's result array is `gate` of the reshaped input, the reshaped weight and the noise.

  The grid has 32 points. Point `t` is handed rows `1024·t … 1024·t + 1023` of the reshaped input (all sixteen
  patches, all 256 lanes), the whole weight, and the same rows of the noise, and writes back the same rows of the
  result. What it writes at row `r` of its block is the patch sum of that row contracted with the weight rows plus the
  noise (the body's arithmetic at an index), and row `r` of block `t` is row `1024·t + r` of the arrays: so point `t`
  writes rows `1024·t …` of `gate`. Every row `b` lies in the block of point `b / 1024`, so the 32 blocks cover the
  result, which therefore ends holding `gate` everywhere.
-/
import proofs.«144044_j9844065042868_1_alg».proof.Proof.Gen.KernelIdeal.Value
import proofs.«144044_j9844065042868_1_alg».proof.Proof.GateSpec
import proofs.«144044_j9844065042868_1_alg».proof.Proof.BlockGate
import Idealize.ShloMosaic.Lib.Pipeline.Value
import Idealize.ShloMosaic.Lib.StableHlo.Run
import Idealize.ShloMosaic.Lib.Tactic

noncomputable section

namespace Cert.Router.Kernel

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The arrays the region finds -/

/-- The region finds the input reshaped to rows of sixteen patches, -/
theorem input_rows (c : Dev nD) :
    (V m c main_v0 : S32768x16x256.Idx → EReal)
      = shapeCast S32768x16x256 (m ((c : Thread nD τ).loc main_arg0)) shapeCasts_S32768x1x4096_S32768x16x256 := by
  dsimp only [Gen.V, Gen.hostOps0]; after_results; rfl

/-- and the weight reshaped to a matrix. -/
theorem weight_rows (c : Dev nD) :
    (V m c main_v1 : S64x256.Idx → EReal)
      = shapeCast S64x256 (m ((c : Thread nD τ).loc main_arg1)) shapeCasts_S64x1x256_S64x256 := by
  dsimp only [Gen.V, Gen.hostOps0]; after_results; rfl

/-! ## Which rows a point is handed -/

/-- The block indices over the grid: the input, the noise and the result move with the point along the rows, and
    nothing else moves. -/
theorem block_index : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The input block at point `t` is rows `1024·t …` of the reshaped input. -/
theorem input_block (c : Dev nD) (t : Fin cfg0.N) (y : S1024x16x256.Idx) (i : S32768x16x256.Idx)
    (h0 : (i 0).val = t.val * 1024 + (y 0).val) (h1 : (i 1).val = (y 1).val) (h2 : (i 2).val = (y 2).val) :
    (iblk m c 0 t : Vec Ideal S1024x16x256 .f32) y = (V m c main_v0 : S32768x16x256.Idx → EReal) i := by
  obtain ⟨e0, e1, e2, -⟩ := block_index t
  unfold iblk
  rw [View.read_apply]
  show V m c main_v0 (((cfg0.win 0).blk t).view.emb y) = V m c main_v0 i
  refine congrArg (V m c main_v0) (funext fun a => Fin.ext ?_)
  match a with
  | ⟨0, _⟩ => show win0_0.index t (0 : Fin 3) * 1024 + 1 * (y 0).val = (i 0).val; rw [e0, h0]; omega
  | ⟨1, _⟩ => show win0_0.index t (1 : Fin 3) * 16 + 1 * (y 1).val = (i 1).val; rw [e1, h1]; omega
  | ⟨2, _⟩ => show win0_0.index t (2 : Fin 3) * 256 + 1 * (y 2).val = (i 2).val; rw [e2, h2]; omega

/-- The weight block at every point is the whole reshaped weight. -/
theorem weight_block (c : Dev nD) (t : Fin cfg0.N) (y : S64x256.Idx) :
    (iblk m c 1 t : Vec Ideal S64x256 .f32) y = (V m c main_v1 : S64x256.Idx → EReal) y := by
  obtain ⟨-, -, -, e0, e1, -⟩ := block_index t
  unfold iblk
  rw [View.read_apply]
  show V m c main_v1 (((cfg0.win 1).blk t).view.emb y) = V m c main_v1 y
  refine congrArg (V m c main_v1) (funext fun a => Fin.ext ?_)
  match a with
  | ⟨0, _⟩ => show win0_1.index t (0 : Fin 2) * 64 + 1 * (y 0).val = (y 0).val; rw [e0]; omega
  | ⟨1, _⟩ => show win0_1.index t (1 : Fin 2) * 256 + 1 * (y 1).val = (y 1).val; rw [e1]; omega

/-- The noise block at point `t` is rows `1024·t …` of the noise. -/
theorem noise_block (c : Dev nD) (t : Fin cfg0.N) (y : S1024x64.Idx) (i : S32768x64.Idx)
    (h0 : (i 0).val = t.val * 1024 + (y 0).val) (h1 : (i 1).val = (y 1).val) :
    (iblk m c 2 t : Vec Ideal S1024x64 .f32) y = (V m c main_arg2 : S32768x64.Idx → EReal) i := by
  obtain ⟨-, -, -, -, -, e0, e1, -⟩ := block_index t
  unfold iblk
  rw [View.read_apply]
  show V m c main_arg2 (((cfg0.win 2).blk t).view.emb y) = V m c main_arg2 i
  refine congrArg (V m c main_arg2) (funext fun a => Fin.ext ?_)
  match a with
  | ⟨0, _⟩ => show win0_2.index t (0 : Fin 2) * 1024 + 1 * (y 0).val = (i 0).val; rw [e0, h0]; omega
  | ⟨1, _⟩ => show win0_2.index t (1 : Fin 2) * 64 + 1 * (y 1).val = (i 1).val; rw [e1, h1]; omega

/-! ## What a point writes back -/

/-- What point `t` stores at `(r, o)` of its block is `gate` at row `1024·t + r`, output `o`. -/
theorem stored_is_gate (c : Dev nD) (t : Fin cfg0.N) (j : S1024x64.Idx) (i : S32768x64.Idx)
    (h0 : (i 0).val = t.val * 1024 + (j 0).val) (h1 : (i 1).val = (j 1).val) :
    k0_pay1 (F := Ideal) (iblk m c 0 t) (iblk m c 1 t) (iblk m c 2 t) j
      = Cert.Router.gate (V m c main_v0) (V m c main_v1) (V m c main_arg2) i := by
  obtain ⟨r, o, rfl⟩ : ∃ (r : Fin 1024) (o : Fin 64), j = ix2 r o := ⟨j 0, j 1, eq_ix2 j⟩
  obtain ⟨b, o', rfl⟩ : ∃ (b : Fin 32768) (o' : Fin 64), i = ix2 b o' := ⟨i 0, i 1, eq_ix2 i⟩
  obtain rfl : o' = o := Fin.ext h1
  refine (Cert.Router.Block.pay_apply (iblk m c 0 t) (iblk m c 1 t) (iblk m c 2 t) r o').trans ?_
  rw [Cert.Router.gate_apply]
  refine congrArg₂ (· + ·) (Finset.sum_congr rfl fun k _ => congrArg₂ (· * ·) (Finset.sum_congr rfl fun p _ => ?_) ?_) ?_
  · exact input_block m c t (ix3 r p k) (ix3 b p k) h0 rfl rfl
  · exact weight_block m c t (ix2 o' k)
  · exact noise_block m c t (ix2 r o') (ix2 b o') h0 rfl

/-- WHAT POINT `t` WRITES BACK is block `t` of `gate` of the arrays the region finds. -/
theorem flushed_eq (c : Dev nD) (t : Fin cfg0.N) :
    (dats m 0 c).flushed 3 t
      = ((cfg0.win 3).blk t).view.read (Elt Ideal) (Cert.Router.gate (V m c main_v0) (V m c main_v1) (V m c main_arg2)) := by
  rw [Value.flushed3]
  unfold out0_3
  rw [View.canon_unit_zero hz2]
  simp only [View.ld_unit_zero (S := S1024x16x256) hz3, View.ld_unit_zero (S := S64x256) hz2, View.ld_unit_zero (S := S1024x64) hz2]
  obtain ⟨-, -, -, -, -, -, -, e0, e1⟩ := block_index t
  funext j
  show k0_pay1 (F := Ideal) (iblk m c 0 t) (iblk m c 1 t) (iblk m c 2 t) j
    = Cert.Router.gate (V m c main_v0) (V m c main_v1) (V m c main_arg2) (((cfg0.win 3).blk t).view.emb j)
  refine stored_is_gate m c t j _ ?_ ?_
  · show win0_3.index t (0 : Fin 2) * 1024 + 1 * (j 0).val = t.val * 1024 + (j 0).val; rw [e0]; omega
  · show win0_3.index t (1 : Fin 2) * 64 + 1 * (j 1).val = (j 1).val; rw [e1]; omega

/-! ## The blocks cover the result -/

/-- An index of the result is in point `t`'s block iff each coordinate is in the block's range on its axis. -/
theorem mem_block (t : Fin cfg0.N) (i : S32768x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v2).slice (win0_3.rect t)).set ↔ _
  rw [View.set_slice_whole, Rect.mem_set_unit]
  exact Iff.rfl

/-- Row `b` is written by point `b / 1024`. -/
theorem covered (i : S32768x64.Idx) :
    ∃ t : Fin cfg0.N, (cfg0.win 3).flush t = true ∧ i ∈ ((cfg0.win 3).blk t).view.set := by
  have hi0 : (i 0).val < 32768 := (i 0).isLt
  have hi1 : (i 1).val < 64 := (i 1).isLt
  have hN : cfg0.N = 32 := N_0
  let t : Fin cfg0.N := ⟨(i 0).val / 1024, by rw [hN]; omega⟩
  have ht : t.val = (i 0).val / 1024 := rfl
  obtain ⟨-, -, -, -, -, -, -, e0, e1⟩ := block_index t
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; rw [e0, ht]; omega
  | ⟨1, _⟩ => show win0_3.index t (1 : Fin 2) * 64 ≤ (i 1).val ∧ (i 1).val < win0_3.index t (1 : Fin 2) * 64 + 64; rw [e1]; omega

/-! ## The result array, and the run -/

/-- THE RESULT ARRAY after the run is `gate` of the arrays the region finds. -/
theorem final (c : Dev nD) :
    (dats m 0 c).arrAt 3 cfg0.N = Cert.Router.gate (V m c main_v0) (V m c main_v1) (V m c main_arg2) :=
  (dats m 0 c).arrAt_eq_of_cover 3 (Cert.Router.gate (V m c main_v0) (V m c main_v1) (V m c main_arg2))
    (fun t _ => flushed_eq m c t) covered

/-- The kernel's run, read: the result array ends at `gate` of the reshaped input, the reshaped weight and the noise;
    the arguments are unchanged. -/
theorem run : θ_run defs (onTc (τ := τ) (main (F := Ideal))) ⟨m, fun _ => 0, ρ⟩ fun r => ∀ c : Dev nD,
      r.2.mem ((c : Thread nD τ).loc main_v2)
        = Cert.Router.gate (shapeCast S32768x16x256 (m ((c : Thread nD τ).loc main_arg0)) shapeCasts_S32768x1x4096_S32768x16x256)
            (shapeCast S64x256 (m ((c : Thread nD τ).loc main_arg1)) shapeCasts_S64x1x256_S64x256)
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      rw [input_rows m c, weight_rows m c, V_main_arg2 m c])), (h c).2⟩)
    (Value.run_blocks m ρ)

end Cert.Router.Kernel

end
-- ==== Proof.RefGate.lean ====
/-
  The reference computes `gate`.

  The reference reshapes the input to rows of sixteen patches and the weight to a matrix, adds the patches lane by
  lane starting from zero, contracts the patch sum with the weight rows and adds the noise. Read at `(b, o)` its last
  stage is `Σ_k (0 + Σ_p xr[b, p, k]) · w[o, k] + tie[b, o]`, which is `gate` of the two reshaped arrays and the
  noise: the leading zero of the sum is dropped and the index functions are the coordinates `(b, p, k)` and `(o, k)`.
-/
import proofs.«144044_j9844065042868_1_alg».proof.Proof.Gen.ReferenceIdeal.Read
import proofs.«144044_j9844065042868_1_alg».proof.Proof.GateSpec

noncomputable section

namespace Cert.Router.Ref

open Cert.ReferenceIdeal Cert.ReferenceIdeal.Gen Cert.ReferenceIdeal.Read Idealize.ShloMosaic Idealize.ShloMosaic.ValueIdx

/-- The reference's result, as a function of its three arguments, is `gate` of the reshaped input, the reshaped weight
    and the noise. -/
theorem result_is_gate (x0 : (⟨S32768x1x4096, .f32⟩ : BufTy).Contents (Elt Ideal)) (x1 : (⟨S64x1x256, .f32⟩ : BufTy).Contents (Elt Ideal))
    (x2 : (⟨S32768x64, .f32⟩ : BufTy).Contents (Elt Ideal)) :
    val_main_v4 (F := Ideal) x0 x1 x2 = Cert.Router.gate (val_main_v0 (F := Ideal) x0) (val_main_v2 (F := Ideal) x1) x2 := by
  funext i
  obtain ⟨b, o, rfl⟩ : ∃ (b : Fin 32768) (o : Fin 64), i = ix2 b o := ⟨i 0, i 1, eq_ix2 i⟩
  rw [val_main_v4_apply, val_main_v3_apply, Cert.Router.gate_apply]
  refine congrArg (· + x2 (ix2 b o)) ?_
  refine Finset.sum_congr rfl fun k _ => ?_
  rw [val_main_v1_apply, val_main_cst_apply]
  have e0 : (FloatOps.ofBits (F := Ideal) .f32 0x00000000#32 : EReal) = 0 := Ideal.ofBits_zero_f32
  have el : ∀ p : Fin 16, idx_main_v1 (lidx_main_v3 (ix2 b o) k) p = ix3 b p k := fun p =>
    funext fun a => Fin.ext (by match a with | ⟨0, _⟩ => rfl | ⟨1, _⟩ => rfl | ⟨2, _⟩ => rfl)
  have er : ridx_main_v3 (ix2 b o) k = ix2 o k :=
    funext fun a => Fin.ext (by match a with | ⟨0, _⟩ => rfl | ⟨1, _⟩ => rfl)
  rw [e0, zero_add, er]
  simp only [el]

end Cert.Router.Ref

end
-- ==== Proof.lean ====
/-
  A router's gate: a strided one-channel convolution written as a patch sum and a small product, plus noise.

  The input row `b` (4096 numbers) is sixteen disjoint patches of 256; the convolution's stride equals its width, so
  summing its outputs over the patches is the same as first adding the patches lane by lane and then taking ONE
  product with the 64 weight rows:

      gate[b, o] = Σ_k (Σ_p x[b, 256·p + k]) · w[o, k] + tie[b, o].

  Both programs are written this way. The kernel streams 1024 rows per grid point through one body (patch sum, a
  product of the patch sum with the transposed weight into a zero accumulator, add the noise; the two casts to a
  shorter float format before the product are the identity on extended reals); the reference does the same on all
  32768 rows at once. So at every index the two results are the SAME nesting of sums of the same entries: no sum is
  reordered and nothing is distributed, and the equality holds on all extended reals — the finiteness of the inputs
  is never used.

  Proof/GateSpec.lean states `gate`; Proof/BlockGate.lean reads the body's arithmetic at one index of a block;
  Proof/KernelGate.lean shows that point `t` writes rows `1024·t …` of `gate`, that the 32 blocks cover the result, and
  hence that the kernel's result array is `gate`; Proof/RefGate.lean shows the reference's last stage is `gate`. Here the
  claims are put together: the two kernels' frames are their generated runs, the reference's frame is its generated run
  with the result dropped, nothing was rewritten by the idealization, and the two idealized programs end at one array.
-/
import proofs.«144044_j9844065042868_1_alg».proof.Defs
import proofs.«144044_j9844065042868_1_alg».proof.Proof.Gen.Kernel
import proofs.«144044_j9844065042868_1_alg».proof.Proof.Gen.Kernel.Skeleton
import proofs.«144044_j9844065042868_1_alg».proof.Proof.Gen.Kernel.Launch
import proofs.«144044_j9844065042868_1_alg».proof.Proof.Gen.Kernel.Points
import proofs.«144044_j9844065042868_1_alg».proof.Proof.Gen.Kernel.Frame
import proofs.«144044_j9844065042868_1_alg».proof.Proof.Gen.KernelIdeal
import proofs.«144044_j9844065042868_1_alg».proof.Proof.Gen.KernelIdeal.Skeleton
import proofs.«144044_j9844065042868_1_alg».proof.Proof.Gen.KernelIdeal.Launch
import proofs.«144044_j9844065042868_1_alg».proof.Proof.Gen.KernelIdeal.Points
import proofs.«144044_j9844065042868_1_alg».proof.Proof.Gen.KernelIdeal.Frame
import proofs.«144044_j9844065042868_1_alg».proof.Proof.Gen.ReferenceIdeal
import proofs.«144044_j9844065042868_1_alg».proof.Proof.Gen.Pre_finite_inputs
import proofs.«144044_j9844065042868_1_alg».proof.Proof.Gen.KernelIdeal.Value
import proofs.«144044_j9844065042868_1_alg».proof.Proof.Gen.ReferenceIdeal.Run
import proofs.«144044_j9844065042868_1_alg».proof.Proof.Gen.ReferenceIdeal.Read
import proofs.«144044_j9844065042868_1_alg».proof.Proof.GateSpec
import proofs.«144044_j9844065042868_1_alg».proof.Proof.BlockGate
import proofs.«144044_j9844065042868_1_alg».proof.Proof.KernelGate
import proofs.«144044_j9844065042868_1_alg».proof.Proof.RefGate
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On extended reals, from memories that agree on the three arguments, the kernel's result array and the reference's
    both end at `gate` of the input reshaped to rows of sixteen patches, the weight reshaped to a matrix, and the noise. -/
theorem algebraic : Cert.algebraic_KernelIdeal_ReferenceIdeal := by
  intro m ρ m' ρ' _ hagree
  refine ⟨_, Cert.Router.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.Router.Ref.result_is_gate, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
